-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x8 : Shape := ⟨2, ![4096, 8]⟩
abbrev S8x4096 : Shape := ⟨2, ![8, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S4x4096x4096 .f32) (main_arg1 : FVec F S4x4096x4096 .f32) (main_arg2 : FVec F S4096x8 .f32) (main_arg3 : FVec F S8x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S4x4096x4096 : Shape := ⟨3, ![4, 4096, 4096]⟩
abbrev S4096x8 : Shape := ⟨2, ![4096, 8]⟩
abbrev S8x4096 : Shape := ⟨2, ![8, 4096]⟩
abbrev S16384x4096 : Shape := ⟨2, ![16384, 4096]⟩
abbrev S256x4096 : Shape := ⟨2, ![256, 4096]⟩
abbrev S256x8 : Shape := ⟨2, ![256, 8]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096x8, .f32⟩
  | .hbm, ⟨3, _⟩ => ⟨S8x4096, .f32⟩
  | .hbm, ⟨4, _⟩ => ⟨S16384x4096, .f32⟩
  | .hbm, ⟨5, _⟩ => ⟨S16384x4096, .f32⟩
  | .hbm, ⟨6, _⟩ => ⟨S8x4096, .f32⟩
  | .hbm, ⟨7, _⟩ => ⟨S8x4096, .bf16⟩
  | .hbm, ⟨8, _⟩ => ⟨S8x4096, .bf16⟩
  | .hbm, ⟨9, _⟩ => ⟨S16384x4096, .f32⟩
  | .hbm, ⟨10, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x4096, .bf16⟩
  | .local _ .vmem, ⟨5, _⟩ => ⟨S8x4096, .bf16⟩
  | .local _ .vmem, ⟨6, _⟩ => ⟨S256x4096, .f32⟩
  | .local _ .vmem, ⟨7, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x4096_S16384x4096 : S4x4096x4096.ShapeCasts S16384x4096
  transposes_S4096x8_S8x4096_1_0 : S4096x8.Transposes [1, 0] S8x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  shapeCasts_S16384x4096_S4x4096x4096 : S16384x4096.ShapeCasts S4x4096x4096
  dot_S256x4096_S8x4096_S256x8_1_1_0_0_n_n_wf : DotDims.WF S256x4096 S8x4096 S256x8 [1] [1] [0] [0] [] []
  dot_S256x8_S8x4096_S256x4096_1_0_0_1_n_n_wf : DotDims.WF S256x8 S8x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .bf16 = 32 ∨ (Rect.block (s := S8x4096) S8x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S8x4096_S256x8_1_1_0_0_n_n : DotDims S256x4096 S8x4096 S256x8 where
  lhsContracting := [1]
  rhsContracting := [1]
  lhsNonContracting := [0]
  rhsNonContracting := [0]
  lhsBatch := []
  rhsBatch := []
  wf := dot_S256x4096_S8x4096_S256x8_1_1_0_0_n_n_wf
def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 1 4

variable [Facts]
-- ==== ReferenceIdeal.lean ====
abbrev S4x4096x4096 : Shape := ⟨3, ![4, 4096, 4096]⟩
abbrev S4096x8 : Shape := ⟨2, ![4096, 8]⟩
abbrev S8x4096 : Shape := ⟨2, ![8, 4096]⟩
abbrev S4x4096x8 : Shape := ⟨3, ![4, 4096, 8]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096x8, .f32⟩
  | .hbm, ⟨3, _⟩ => ⟨S8x4096, .f32⟩
  | .hbm, ⟨4, _⟩ => ⟨S4x4096x8, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x4096_S4096x8_S4x4096x8_2_0_01_1_n_n_wf : DotDims.WF S4x4096x4096 S4096x8 S4x4096x8 [2] [0] [0, 1] [1] [] []
  dot_S4x4096x8_S8x4096_S4x4096x4096_2_0_01_1_n_n_wf : DotDims.WF S4x4096x8 S8x4096 S4x4096x4096 [2] [0] [0, 1] [1] [] []

variable [Facts₀]

def dot_S4x4096x4096_S4096x8_S4x4096x8_2_0_01_1_n_n : DotDims S4x4096x4096 S4096x8 S4x4096x8 where
  lhsContracting := [2]
  rhsContracting := [0]
  lhsNonContracting := [0, 1]
  rhsNonContracting := [1]
  lhsBatch := []
  rhsBatch := []
  wf := dot_S4x4096x4096_S4096x8_S4x4096x8_2_0_01_1_n_n_wf
def dot_S4x4096x8_S8x4096_S4x4096x4096_2_0_01_1_n_n : DotDims S4x4096x8 S8x4096 S4x4096x4096 where
  lhsContracting := [2]
  rhsContracting := [0]
  lhsNonContracting := [0, 1]
  rhsNonContracting := [1]
  lhsBatch := []
  rhsBatch := []
  wf := dot_S4x4096x8_S8x4096_S4x4096x4096_2_0_01_1_n_n_wf

class Facts : Prop extends Facts₀ where

variable [Facts]
-- ==== Proof.Payload.lean ====
/-
  The kernel body's stored value, element by element, over the extended reals.

  One grid point holds a block `x` of 256 rows of the flattened input (256 × 4096), the whole transposed adapter
  `a` (8 × 4096, `a (r, d) = A (d, r)`), the whole second adapter `b` (8 × 4096) and the matching block `o` of the
  original output.  A change of float format is the identity on the extended reals and a matrix product into a zero
  accumulator is the plain sum over the contracted coordinate, so the stored block is, at row `p` and column `q`,

      o (p, q) + (∑ r, (∑ d, x (p, d) · a (r, d)) · b (r, q)) · 2.

  The first product contracts the second axis of both operands (the adapter arrives transposed), the second product is the
  ordinary rows-by-columns one.
-/
import proofs.«417756_j27255862460738_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The first product: both operands contracted along their second axis -/

theorem lhsLow_0 (i : S256x8.Idx) (q : dot_S256x4096_S8x4096_S256x8_1_1_0_0_n_n.contr.Idx) :
    (dot_S256x4096_S8x4096_S256x8_1_1_0_0_n_n.lhsIdx i q 0).val = (i 0).val := by
  unfold DotDims.lhsIdx
  rw [dif_neg (show ¬(0 : Fin S256x4096.rank) ∈ dot_S256x4096_S8x4096_S256x8_1_1_0_0_n_n.lhsBatch by decide), dif_pos (show (0 : Fin S256x4096.rank) ∈ dot_S256x4096_S8x4096_S256x8_1_1_0_0_n_n.lhsNonContracting by decide)]
  rfl
theorem lhsLow_1 (i : S256x8.Idx) (q : dot_S256x4096_S8x4096_S256x8_1_1_0_0_n_n.contr.Idx) :
    (dot_S256x4096_S8x4096_S256x8_1_1_0_0_n_n.lhsIdx i q 1).val = (q ⟨0, by decide⟩).val :=
  dot_S256x4096_S8x4096_S256x8_1_1_0_0_n_n.lhsIdx_val_of_single rfl i q
theorem rhsLow_0 (i : S256x8.Idx) (q : dot_S256x4096_S8x4096_S256x8_1_1_0_0_n_n.contr.Idx) :
    (dot_S256x4096_S8x4096_S256x8_1_1_0_0_n_n.rhsIdx i q 0).val = (i 1).val := by
  unfold DotDims.rhsIdx
  rw [dif_neg (show ¬(0 : Fin S8x4096.rank) ∈ dot_S256x4096_S8x4096_S256x8_1_1_0_0_n_n.rhsBatch by decide), dif_pos (show (0 : Fin S8x4096.rank) ∈ dot_S256x4096_S8x4096_S256x8_1_1_0_0_n_n.rhsNonContracting by decide)]
  rfl
theorem rhsLow_1 (i : S256x8.Idx) (q : dot_S256x4096_S8x4096_S256x8_1_1_0_0_n_n.contr.Idx) :
    (dot_S256x4096_S8x4096_S256x8_1_1_0_0_n_n.rhsIdx i q 1).val = (q ⟨0, by decide⟩).val :=
  dot_S256x4096_S8x4096_S256x8_1_1_0_0_n_n.rhsIdx_val_of_single rfl i q

/-- The low-rank product at `(p, r)`: the sum over `d` of `x (p, d) · a (r, d)`. -/
theorem low_apply (x : FVec Ideal S256x4096 .bf16) (a : FVec Ideal S8x4096 .bf16) (p : Fin 256) (r : Fin 8) :
    matmul dot_S256x4096_S8x4096_S256x8_1_1_0_0_n_n none x a (constant (F := Ideal) S256x8 .f32 0x00000000#32) (ix2 p r)
      = ∑ d : Fin 4096, x (ix2 p d) * a (ix2 r d) := by
  show FloatOps.matmul _ none x a _ (ix2 p r) = _
  rw [Ideal.matmul_constant_zero_apply, ← Equiv.sum_comp (contrEquiv1 dot_S256x4096_S8x4096_S256x8_1_1_0_0_n_n 4096 rfl rfl).symm]
  refine Finset.sum_congr rfl fun k _ => ?_
  have hk := contrEquiv1_symm_val dot_S256x4096_S8x4096_S256x8_1_1_0_0_n_n 4096 rfl rfl k
  have el : dot_S256x4096_S8x4096_S256x8_1_1_0_0_n_n.lhsIdx (ix2 p r) ((contrEquiv1 dot_S256x4096_S8x4096_S256x8_1_1_0_0_n_n 4096 rfl rfl).symm k) = ix2 p k := funext fun ax => Fin.ext (by
    match ax with
    | ⟨0, _⟩ => exact lhsLow_0 _ _
    | ⟨1, _⟩ => exact (lhsLow_1 _ _).trans hk)
  have er : dot_S256x4096_S8x4096_S256x8_1_1_0_0_n_n.rhsIdx (ix2 p r) ((contrEquiv1 dot_S256x4096_S8x4096_S256x8_1_1_0_0_n_n 4096 rfl rfl).symm k) = ix2 r k := funext fun ax => Fin.ext (by
    match ax with
    | ⟨0, _⟩ => exact rhsLow_0 _ _
    | ⟨1, _⟩ => exact (rhsLow_1 _ _).trans hk)
  rw [el, er]

/-! ## The second product: rows by columns -/

theorem lhsOut_0 (i : S256x4096.Idx) (q : dot_S256x8_S8x4096_S256x4096_1_0_0_1_n_n.contr.Idx) :
    (dot_S256x8_S8x4096_S256x4096_1_0_0_1_n_n.lhsIdx i q 0).val = (i 0).val := by
  unfold DotDims.lhsIdx
  rw [dif_neg (show ¬(0 : Fin S256x8.rank) ∈ dot_S256x8_S8x4096_S256x4096_1_0_0_1_n_n.lhsBatch by decide), dif_pos (show (0 : Fin S256x8.rank) ∈ dot_S256x8_S8x4096_S256x4096_1_0_0_1_n_n.lhsNonContracting by decide)]
  rfl
theorem lhsOut_1 (i : S256x4096.Idx) (q : dot_S256x8_S8x4096_S256x4096_1_0_0_1_n_n.contr.Idx) :
    (dot_S256x8_S8x4096_S256x4096_1_0_0_1_n_n.lhsIdx i q 1).val = (q ⟨0, by decide⟩).val :=
  dot_S256x8_S8x4096_S256x4096_1_0_0_1_n_n.lhsIdx_val_of_single rfl i q
theorem rhsOut_0 (i : S256x4096.Idx) (q : dot_S256x8_S8x4096_S256x4096_1_0_0_1_n_n.contr.Idx) :
    (dot_S256x8_S8x4096_S256x4096_1_0_0_1_n_n.rhsIdx i q 0).val = (q ⟨0, by decide⟩).val :=
  dot_S256x8_S8x4096_S256x4096_1_0_0_1_n_n.rhsIdx_val_of_single rfl i q
theorem rhsOut_1 (i : S256x4096.Idx) (q : dot_S256x8_S8x4096_S256x4096_1_0_0_1_n_n.contr.Idx) :
    (dot_S256x8_S8x4096_S256x4096_1_0_0_1_n_n.rhsIdx i q 1).val = (i 1).val := by
  unfold DotDims.rhsIdx
  rw [dif_neg (show ¬(1 : Fin S8x4096.rank) ∈ dot_S256x8_S8x4096_S256x4096_1_0_0_1_n_n.rhsBatch by decide), dif_pos (show (1 : Fin S8x4096.rank) ∈ dot_S256x8_S8x4096_S256x4096_1_0_0_1_n_n.rhsNonContracting by decide)]
  rfl

/-- The product back to full width at `(p, q)`: the sum over `r` of `l (p, r) · b (r, q)`. -/
theorem out_apply (l : FVec Ideal S256x8 .bf16) (b : FVec Ideal S8x4096 .bf16) (p : Fin 256) (q : Fin 4096) :
    matmul dot_S256x8_S8x4096_S256x4096_1_0_0_1_n_n none l b (constant (F := Ideal) S256x4096 .f32 0x00000000#32) (ix2 p q)
      = ∑ r : Fin 8, l (ix2 p r) * b (ix2 r q) := by
  show FloatOps.matmul _ none l b _ (ix2 p q) = _
  rw [Ideal.matmul_constant_zero_apply, ← Equiv.sum_comp (contrEquiv1 dot_S256x8_S8x4096_S256x4096_1_0_0_1_n_n 8 rfl rfl).symm]
  refine Finset.sum_congr rfl fun k _ => ?_
  have hk := contrEquiv1_symm_val dot_S256x8_S8x4096_S256x4096_1_0_0_1_n_n 8 rfl rfl k
  have el : dot_S256x8_S8x4096_S256x4096_1_0_0_1_n_n.lhsIdx (ix2 p q) ((contrEquiv1 dot_S256x8_S8x4096_S256x4096_1_0_0_1_n_n 8 rfl rfl).symm k) = ix2 p k := funext fun ax => Fin.ext (by
    match ax with
    | ⟨0, _⟩ => exact lhsOut_0 _ _
    | ⟨1, _⟩ => exact (lhsOut_1 _ _).trans hk)
  have er : dot_S256x8_S8x4096_S256x4096_1_0_0_1_n_n.rhsIdx (ix2 p q) ((contrEquiv1 dot_S256x8_S8x4096_S256x4096_1_0_0_1_n_n 8 rfl rfl).symm k) = ix2 k q := funext fun ax => Fin.ext (by
    match ax with
    | ⟨0, _⟩ => exact (rhsOut_0 _ _).trans hk
    | ⟨1, _⟩ => exact rhsOut_1 _ _)
  rw [el, er]

/-! ## The stored block -/

/-- The stored value at row `p`, column `q` of the block. -/
theorem stored_apply (x : FVec Ideal S256x4096 .f32) (a b : FVec Ideal S8x4096 .bf16) (o : FVec Ideal S256x4096 .f32)
    (p : Fin 256) (q : Fin 4096) :
    k0_pay1 (F := Ideal) x a b o (ix2 p q)
      = o (ix2 p q) + (∑ r : Fin 8, (∑ d : Fin 4096, x (ix2 p d) * a (ix2 r d)) * b (ix2 r q)) * Ideal.ofBits .f32 0x40000000#32 := by
  unfold k0_pay1
  simp only [shapeCast_self]
  show o (ix2 p q) + matmul dot_S256x8_S8x4096_S256x4096_1_0_0_1_n_n none _ b (constant (F := Ideal) S256x4096 .f32 0x00000000#32) (ix2 p q) * Ideal.ofBits .f32 0x40000000#32 = _
  rw [out_apply]
  refine congrArg (fun z => o (ix2 p q) + z * Ideal.ofBits .f32 0x40000000#32) (Finset.sum_congr rfl fun r _ => ?_)
  refine congrArg (· * b (ix2 r q)) ?_
  exact low_apply _ a p r

/-- The stored block as one function of the index. -/
theorem stored_eq (x : FVec Ideal S256x4096 .f32) (a b : FVec Ideal S8x4096 .bf16) (o : FVec Ideal S256x4096 .f32) :
    k0_pay1 (F := Ideal) x a b o
      = fun j => o j + (∑ r : Fin 8, (∑ d : Fin 4096, x (ix2 (j 0) d) * a (ix2 r d)) * b (ix2 r (j 1))) * Ideal.ofBits .f32 0x40000000#32 := by
  funext j
  obtain ⟨p, q, rfl⟩ : ∃ (p : Fin 256) (q : Fin 4096), j = ix2 p q := ⟨j 0, j 1, eq_ix2 j⟩
  exact stored_apply x a b o p q

end Cert.KernelIdeal.Body

end
-- ==== Proof.Region.lean ====
/-
  From blocks to the whole result array of the region.

  The region's grid has 64 points; point `t` fetches rows `256 t … 256 t + 255` of the flattened input and of the
  flattened original output, the two adapters whole, and writes back rows `256 t … 256 t + 255` of the result.  A row of
  the stored block depends only on the same row of the two fetched blocks, so every written block is the restriction of
  ONE function of the four arrays the region finds,

      rows X O At Bb (n, q) = O (n, q) + (∑ r, (∑ d, X (n, d) · At (r, d)) · Bb (r, q)) · 2,

  and the 64 row blocks tile the 16384 rows: the result array ends holding that function.
-/
import proofs.«417756_j27255862460738_3_alg».proof.Proof.Gen.KernelIdeal.Frame
import proofs.«417756_j27255862460738_3_alg».proof.Proof.Payload
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The result array as one function of the flattened input `X`, the flattened original output `O`, the transposed first
    adapter `At` and the second adapter `Bb`. -/
def rows (X O : S16384x4096.Idx → EReal) (At Bb : S8x4096.Idx → EReal) : S16384x4096.Idx → EReal :=
  fun i => O i + (∑ r : Fin 8, (∑ d : Fin 4096, X (ix2 (i 0) d) * At (ix2 r d)) * Bb (ix2 r (i 1))) * Ideal.ofBits .f32 0x40000000#32

/-- The printed index maps over the grid: the row-blocked windows sit at block row `t`, the adapters at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four arrays the region finds, at their literal types: the flattened input, the flattened original output, the
    transposed first adapter and the second adapter. -/
abbrev xArr (c : Dev nD) : FVec Ideal S16384x4096 .f32 := V m c main_v0
abbrev oArr (c : Dev nD) : FVec Ideal S16384x4096 .f32 := V m c main_v1
abbrev aArr (c : Dev nD) : FVec Ideal S8x4096 .bf16 := V m c main_v3
abbrev bArr (c : Dev nD) : FVec Ideal S8x4096 .bf16 := V m c main_v4

/-- The input block of point `t` at `y` is the flattened input at row `256 t + y₀`, column `y₁`. -/
theorem xblk_apply (c : Dev nD) (t : Fin cfg0.N) (y : S256x4096.Idx) (k : S16384x4096.Idx)
    (hk0 : (k 0).val = t.val * 256 + (y 0).val) (hk1 : (k 1).val = (y 1).val) :
    (iblk m c 0 t : Vec Ideal S256x4096 .f32) y = xArr m c k := by
  obtain ⟨e00, e01, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * (y 0).val = (k 0).val; omega
  | ⟨1, _⟩ => show win0_0.index t (1 : Fin 2) * 4096 + 1 * (y 1).val = (k 1).val; omega

/-- The original-output block of point `t`, likewise. -/
theorem oblk_apply (c : Dev nD) (t : Fin cfg0.N) (y : S256x4096.Idx) (k : S16384x4096.Idx)
    (hk0 : (k 0).val = t.val * 256 + (y 0).val) (hk1 : (k 1).val = (y 1).val) :
    (iblk m c 1 t : Vec Ideal S256x4096 .f32) y = oArr m c k := by
  obtain ⟨-, -, e10, e11, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 256 + 1 * (y 0).val = (k 0).val; omega
  | ⟨1, _⟩ => show win0_1.index t (1 : Fin 2) * 4096 + 1 * (y 1).val = (k 1).val; omega

/-- Each adapter's one block is the adapter. -/
theorem ablk_apply (c : Dev nD) (t : Fin cfg0.N) (y : S8x4096.Idx) :
    (iblk m c 2 t : Vec Ideal S8x4096 .bf16) y = aArr m c y := by
  obtain ⟨-, -, -, -, e20, e21, -⟩ := idx_facts t
  unfold iblk
  rw [View.read_apply]
  show V m c main_v3 _ = V m c main_v3 _
  refine congrArg (V m c main_v3) (funext fun a => Fin.ext ?_)
  match a with
  | ⟨0, _⟩ => show win0_2.index t (0 : Fin 2) * 8 + 1 * (y 0).val = (y 0).val; omega
  | ⟨1, _⟩ => show win0_2.index t (1 : Fin 2) * 4096 + 1 * (y 1).val = (y 1).val; omega

theorem bblk_apply (c : Dev nD) (t : Fin cfg0.N) (y : S8x4096.Idx) :
    (iblk m c 3 t : Vec Ideal S8x4096 .bf16) y = bArr m c y := by
  obtain ⟨-, -, -, -, -, -, e30, e31, -⟩ := idx_facts t
  unfold iblk
  rw [View.read_apply]
  show V m c main_v4 _ = V m c main_v4 _
  refine congrArg (V m c main_v4) (funext fun a => Fin.ext ?_)
  match a with
  | ⟨0, _⟩ => show win0_3.index t (0 : Fin 2) * 8 + 1 * (y 0).val = (y 0).val; omega
  | ⟨1, _⟩ => show win0_3.index t (1 : Fin 2) * 4096 + 1 * (y 1).val = (y 1).val; omega

/-- The stored block of point `t` at `j` is `rows` of the four arrays at row `256 t + j₀`, column `j₁`. -/
theorem stored_rows (c : Dev nD) (t : Fin cfg0.N) (j : S256x4096.Idx) (i : S16384x4096.Idx)
    (hi0 : (i 0).val = t.val * 256 + (j 0).val) (hi1 : (i 1).val = (j 1).val) :
    k0_pay1 (F := Ideal) (iblk m c 0 t) (iblk m c 2 t) (iblk m c 3 t) (iblk m c 1 t) j
      = rows (xArr m c) (oArr m c) (aArr m c) (bArr m c) i := by
  refine (congrFun (Body.stored_eq (iblk m c 0 t) (iblk m c 2 t) (iblk m c 3 t) (iblk m c 1 t)) j).trans ?_
  unfold rows
  rw [oblk_apply m c t j i hi0 hi1]
  refine congrArg (fun z => oArr m c i + z * Ideal.ofBits .f32 0x40000000#32) (Finset.sum_congr rfl fun r _ => ?_)
  rw [bblk_apply m c t (ix2 r (j 1))]
  have hb : (ix2 r (j 1) : S8x4096.Idx) = ix2 r (i 1) := by
    funext a; apply Fin.ext
    match a with
    | ⟨0, _⟩ => rfl
    | ⟨1, _⟩ => exact hi1.symm
  rw [hb]
  refine congrArg (· * bArr m c (ix2 r (i 1))) (Finset.sum_congr rfl fun d _ => ?_)
  rw [ablk_apply m c t (ix2 r d), xblk_apply m c t (ix2 (j 0) d) (ix2 (i 0) d) hi0 rfl]

/-- What point `t` writes back is block `t` of `rows` of the arrays the region finds. -/
theorem flushed_eq (c : Dev nD) (t : Fin cfg0.N) :
    (dats m 0 c).flushed 4 t
      = ((cfg0.win 4).blk t).view.read (Elt Ideal) (rows (xArr m c) (oArr m c) (aArr m c) (bArr m c)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S8x4096) hz]
  obtain ⟨-, -, -, -, -, -, -, -, e40, e41⟩ := idx_facts t
  funext j
  refine stored_rows m c t j _ ?_ ?_
  · show win0_4.index t (0 : Fin 2) * 256 + 1 * (j 0).val = t.val * 256 + (j 0).val; omega
  · show win0_4.index t (1 : Fin 2) * 4096 + 1 * (j 1).val = (j 1).val; omega

/-- An index of the result array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]
  exact Iff.rfl

/-- The row blocks tile the array: row `n` is in the block of point `n / 256`. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 64 := N_0
  refine ⟨⟨(i 0).val / 256, by rw [hN]; omega⟩, flush0_4 _, ?_⟩
  rw [mem_blk]
  obtain ⟨-, -, -, -, -, -, -, -, e40, e41⟩ := idx_facts ⟨(i 0).val / 256, by rw [hN]; omega⟩
  intro a
  match a with
  | ⟨0, _⟩ => show win0_4.index _ (0 : Fin 2) * 256 ≤ (i 0).val ∧ (i 0).val < win0_4.index _ (0 : Fin 2) * 256 + 256; rw [e40]; show (i 0).val / 256 * 256 ≤ (i 0).val ∧ (i 0).val < (i 0).val / 256 * 256 + 256; omega
  | ⟨1, _⟩ => show win0_4.index _ (1 : Fin 2) * 4096 ≤ (i 1).val ∧ (i 1).val < win0_4.index _ (1 : Fin 2) * 4096 + 4096; rw [e41]; omega

/-- The result array after the region. -/
theorem result_rows (c : Dev nD) :
    (dats m 0 c).arrAt 4 cfg0.N = rows (xArr m c) (oArr m c) (aArr m c) (bArr m c) :=
  (dats m 0 c).arrAt_eq_of_cover 4 _ (fun t _ => flushed_eq m c t) covered

end Cert.KernelIdeal.Region

end
-- ==== Proof.Spec.lean ====
/-
  The low-rank adapter update as one function of the four argument arrays, over the extended reals:

      adapted x orig A B (b, s, o) = orig (b, s, o) + (∑ r, (∑ d, x (b, s, d) · A (d, r)) · B (r, o)) · 2

  — the input row `(b, s)` is projected down to 8 coordinates by `A`, projected back up by `B`, doubled, and added onto
  the original output.  Both programs compute it in this order of operations (inner sum over the 4096 input coordinates,
  outer sum over the 8 low-rank coordinates, then the scale, then the sum with the original output), so no algebraic law
  beyond re-indexing is needed and the function is stated for arbitrary extended-real entries.
-/
import Idealize.ShloMosaic.PureOps.Ideal
import Idealize.ShloMosaic.Lib.ValueIdx

noncomputable section

open scoped BigOperators

namespace Cert.Adapter

open Idealize.ShloMosaic Idealize.ShloMosaic.ValueIdx

/-- The adapter update, index by index. -/
def adapted (x orig : (⟨3, ![4, 4096, 4096]⟩ : Shape).Idx → EReal) (A : (⟨2, ![4096, 8]⟩ : Shape).Idx → EReal)
    (B : (⟨2, ![8, 4096]⟩ : Shape).Idx → EReal) : (⟨3, ![4, 4096, 4096]⟩ : Shape).Idx → EReal :=
  fun i => orig i + (∑ r : Fin 8, (∑ d : Fin 4096, x (ix3 (i 0) (i 1) d) * A (ix2 d r)) * B (ix2 r (i 2))) * Ideal.ofBits .f32 0x40000000#32

end Cert.Adapter

end
-- ==== Proof.Whole.lean ====
/-
  The kernel program from its arguments to its result.

  Before the region the host flattens the input and the original output from (4, 4096, 4096) to (16384, 4096) — row
  `n = 4096 b + s` is `(b, s)` —, transposes the first adapter and changes both adapters' float format (the identity on
  the extended reals); after the region it unflattens the result.  With the region's result array at `rows` of what the
  region found, the program's result at `(b, s, o)` is

      orig (b, s, o) + (∑ r, (∑ d, x (b, s, d) · A (d, r)) · B (r, o)) · 2,

  the adapter update of the four arguments.
-/
import proofs.«417756_j27255862460738_3_alg».proof.Proof.Region
import proofs.«417756_j27255862460738_3_alg».proof.Proof.Spec
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Region Idealize.ShloMosaic.ValueIdx

variable (m : (ℓ : Loc nD τ sig) → Buf (Elt Ideal) ℓ) (ρ : Dev nD → PrngReg)

/-! ## Flattening and unflattening read at an index -/

/-- The flattened array at row `n = 4096 b + s`, column `o`, is the array at `(b, s, o)`. -/
theorem flat_apply {α : Type} (x : S4x4096x4096.Idx → α) (h : S4x4096x4096.ShapeCasts S16384x4096)
    (b : Fin 4) (s : Fin 4096) (o : Fin 4096) (n : Fin 16384) (hn : n.val = b.val * 4096 + s.val) :
    shapeCast S16384x4096 x h (ix2 n o) = x (ix3 b s o) :=
  shapeCast_apply x h _ _ (by
    rw [Shape.rowMajor_val_three, Shape.rowMajor_val_two]
    show (b.val * 4096 + s.val) * 4096 + o.val = n.val * 4096 + o.val
    rw [hn])

/-- The unflattened array at `(b, s, o)` is the array at row `n = 4096 b + s`, column `o`. -/
theorem unflat_apply {α : Type} (y : S16384x4096.Idx → α) (h : S16384x4096.ShapeCasts S4x4096x4096)
    (b : Fin 4) (s : Fin 4096) (o : Fin 4096) (n : Fin 16384) (hn : n.val = b.val * 4096 + s.val) :
    shapeCast S4x4096x4096 y h (ix3 b s o) = y (ix2 n o) :=
  shapeCast_apply y h _ _ (by
    rw [Shape.rowMajor_val_three, Shape.rowMajor_val_two]
    show n.val * 4096 + o.val = (b.val * 4096 + s.val) * 4096 + o.val
    rw [hn])

/-! ## The arrays the region finds, from the arguments -/

/-- The four arguments at their literal types. -/
abbrev argX (c : Dev nD) : FVec Ideal S4x4096x4096 .f32 := m ((c : Thread nD τ).loc main_arg0)
abbrev argO (c : Dev nD) : FVec Ideal S4x4096x4096 .f32 := m ((c : Thread nD τ).loc main_arg1)
abbrev argA (c : Dev nD) : FVec Ideal S4096x8 .f32 := m ((c : Thread nD τ).loc main_arg2)
abbrev argB (c : Dev nD) : FVec Ideal S8x4096 .f32 := m ((c : Thread nD τ).loc main_arg3)

theorem xArr_eq (c : Dev nD) :
    xArr m c = shapeCast S16384x4096 (argX m c) shapeCasts_S4x4096x4096_S16384x4096 := by
  show StableHlo.after hostOps0 (fun b => m (c, b)) (Proc.devRef .tc main_v0) = _
  after_results
  rfl

theorem oArr_eq (c : Dev nD) :
    oArr m c = shapeCast S16384x4096 (argO m c) shapeCasts_S4x4096x4096_S16384x4096 := by
  show StableHlo.after hostOps0 (fun b => m (c, b)) (Proc.devRef .tc main_v1) = _
  after_results
  rfl

theorem aArr_eq (c : Dev nD) :
    aArr m c = truncf .bf16 (transpose S8x4096 [1, 0] (argA m c) transposes_S4096x8_S8x4096_1_0) bitsLt_bf16_f32 := by
  show StableHlo.after hostOps0 (fun b => m (c, b)) (Proc.devRef .tc main_v3) = _
  after_results

theorem bArr_eq (c : Dev nD) :
    bArr m c = truncf .bf16 (argB m c) bitsLt_bf16_f32 := by
  show StableHlo.after hostOps0 (fun b => m (c, b)) (Proc.devRef .tc main_v4) = _
  after_results

/-- The transposed adapter at `(r, d)` is the adapter at `(d, r)`. -/
theorem aArr_apply (c : Dev nD) (r : Fin 8) (d : Fin 4096) :
    aArr m c (ix2 r d) = argA m c (ix2 d r) := by
  rw [aArr_eq]
  exact transpose_apply _ _ transposes_S4096x8_S8x4096_1_0 _ _ fun a => match a with | ⟨0, _⟩ => rfl | ⟨1, _⟩ => rfl

/-! ## The program's result -/

/-- The host line after the region unflattens the region's result array. -/
theorem tail_eq (c : Dev nD) :
    Pipeline.afterTail₀ cfgs (dats m) 0 (V0 m) [hostOps1] c main_v6
      = shapeCast S4x4096x4096 ((dats m 0 c).arrAt 4 cfg0.N) shapeCasts_S16384x4096_S4x4096x4096 := by
  unfold Pipeline.afterTail₀
  show StableHlo.after hostOps1 _ (Proc.devRef .tc main_v6) = _
  after_results
  rw [Pipeline.withArrays_arr spec0 launch0.win.arr_inj c _ _ 4]
  rfl

/-- The unflattened `rows` of the arrays the region finds is the adapter update of the arguments. -/
theorem result_eq (c : Dev nD) :
    shapeCast S4x4096x4096 (rows (xArr m c) (oArr m c) (aArr m c) (bArr m c)) shapeCasts_S16384x4096_S4x4096x4096
      = Cert.Adapter.adapted (argX m c) (argO m c) (argA m c) (argB m c) := by
  funext i
  obtain ⟨b, s, o, rfl⟩ : ∃ (b : Fin 4) (s : Fin 4096) (o : Fin 4096), i = ix3 b s o := ⟨i 0, i 1, i 2, eq_ix3 i⟩
  have hn : b.val * 4096 + s.val < 16384 := by have := b.isLt; have := s.isLt; omega
  rw [unflat_apply _ _ b s o ⟨b.val * 4096 + s.val, hn⟩ rfl]
  unfold rows Cert.Adapter.adapted
  rw [oArr_eq, flat_apply _ _ b s o ⟨b.val * 4096 + s.val, hn⟩ rfl]
  refine congrArg (fun z => argO m c (ix3 b s o) + z * Ideal.ofBits .f32 0x40000000#32) (Finset.sum_congr rfl fun r _ => ?_)
  rw [bArr_eq]
  refine congrArg (· * argB m c (ix2 r o)) (Finset.sum_congr rfl fun d _ => ?_)
  rw [aArr_apply, xArr_eq, flat_apply _ _ b s d ⟨b.val * 4096 + s.val, hn⟩ rfl]

/-- The run, read: the result at the adapter update of the arguments, the arguments unchanged. -/
theorem run : θ_run defs (onTc (τ := τ) (main (F := Ideal))) ⟨m, fun _ => 0, ρ⟩ fun r => ∀ c : Dev nD,
      r.2.mem ((c.tc : Thread nD τ).loc main_v6)
        = Cert.Adapter.adapted (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans
          ((tail_eq m c).trans ((congrArg (fun y => shapeCast S4x4096x4096 y shapeCasts_S16384x4096_S4x4096x4096) (result_rows m c)).trans (result_eq m c))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Whole

end
-- ==== Proof.RefSide.lean ====
/-
  The reference computes the adapter update.

  Its two contractions are read one element at a time: the first gives, at `(b, s, r)`, the sum over `d` of
  `x (b, s, d) · A (d, r)`; the second, at `(b, s, o)`, the sum over `r` of that times `B (r, o)`; the product with the
  broadcast constant 2 and the sum with the original output are pointwise.  Identifying the composed operand indices with
  the coordinates `(b, s, d)`, `(d, r)`, `(r, o)` gives the specification term for term.
-/
import proofs.«417756_j27255862460738_3_alg».proof.Proof.Gen.ReferenceIdeal.Read
import proofs.«417756_j27255862460738_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

theorem lidx_low (i : S4x4096x4096.Idx) (r : Fin 8) (d : Fin 4096) :
    lidx_main_v0 (lidx_main_v1 i r) d = ix3 (i 0) (i 1) d :=
  funext fun a => Fin.ext (by match a with | ⟨0, _⟩ => rfl | ⟨1, _⟩ => rfl | ⟨2, _⟩ => rfl)

theorem ridx_low (i : S4x4096x4096.Idx) (r : Fin 8) (d : Fin 4096) :
    ridx_main_v0 (lidx_main_v1 i r) d = ix2 d r :=
  funext fun a => Fin.ext (by match a with | ⟨0, _⟩ => rfl | ⟨1, _⟩ => rfl)

theorem ridx_out (i : S4x4096x4096.Idx) (r : Fin 8) : ridx_main_v1 i r = ix2 r (i 2) :=
  funext fun a => Fin.ext (by match a with | ⟨0, _⟩ => rfl | ⟨1, _⟩ => rfl)

/-- The reference's result is the adapter update of its four arguments. -/
theorem ref_eq (x0 x1 : FVec Ideal S4x4096x4096 .f32) (x2 : FVec Ideal S4096x8 .f32) (x3 : FVec Ideal S8x4096 .f32) :
    val_main_v4 (F := Ideal) x0 x1 x2 x3 = Cert.Adapter.adapted x0 x1 x2 x3 := by
  funext i
  rw [val_main_v4_apply, val_main_v3_apply, val_main_v1_apply, val_main_v2_apply, val_main_cst_apply]
  simp only [val_main_v0_apply, lidx_low, ridx_low, ridx_out]
  rfl

end Cert.ReferenceIdeal.RefValue

end
-- ==== Proof.lean ====
/-
  The certificate of the low-rank adapter kernel against its reference.

  Both programs compute, over the extended reals,

      out (b, s, o) = orig (b, s, o) + (∑ r, (∑ d, x (b, s, d) · A (d, r)) · B (r, o)) · 2

  in the same order of operations.  The kernel flattens the leading two axes, walks the 16384 rows in 64 blocks of 256,
  and in each block takes the two matrix products (the first against the transposed adapter), doubles, and adds the
  original output's block; the blocks tile the rows, and the result is unflattened.  The reference takes the two
  contractions on the whole arrays.  The changes of float format the kernel makes are the identity on the extended reals,
  a matrix product into a zero accumulator is the plain sum, and no step regroups a sum or moves a factor across one, so
  the equality holds at every extended-real input and the finiteness of the inputs is not used.  The three programs
  terminate without fault and leave their arguments unchanged; the idealized kernel is the kernel's own text (the
  idealization rewrote nothing).
-/
import proofs.«417756_j27255862460738_3_alg».proof.Defs
import proofs.«417756_j27255862460738_3_alg».proof.Proof.Gen.Kernel
import proofs.«417756_j27255862460738_3_alg».proof.Proof.Gen.Kernel.Skeleton
import proofs.«417756_j27255862460738_3_alg».proof.Proof.Gen.Kernel.Launch
import proofs.«417756_j27255862460738_3_alg».proof.Proof.Gen.Kernel.Points
import proofs.«417756_j27255862460738_3_alg».proof.Proof.Gen.Kernel.Frame
import proofs.«417756_j27255862460738_3_alg».proof.Proof.Gen.KernelIdeal
import proofs.«417756_j27255862460738_3_alg».proof.Proof.Gen.KernelIdeal.Skeleton
import proofs.«417756_j27255862460738_3_alg».proof.Proof.Gen.KernelIdeal.Launch
import proofs.«417756_j27255862460738_3_alg».proof.Proof.Gen.KernelIdeal.Points
import proofs.«417756_j27255862460738_3_alg».proof.Proof.Gen.KernelIdeal.Frame
import proofs.«417756_j27255862460738_3_alg».proof.Proof.Gen.ReferenceIdeal
import proofs.«417756_j27255862460738_3_alg».proof.Proof.Gen.Pre_finite_inputs
import proofs.«417756_j27255862460738_3_alg».proof.Proof.Gen.ReferenceIdeal.Run
import proofs.«417756_j27255862460738_3_alg».proof.Proof.Gen.ReferenceIdeal.Read
import proofs.«417756_j27255862460738_3_alg».proof.Proof.Whole
import proofs.«417756_j27255862460738_3_alg».proof.Proof.RefSide
import Idealize.ShloMosaic.Adequacy
import Idealize.ShloMosaic.Init

noncomputable section

namespace Cert.Proof

open Idealize.ShloMosaic Idealize.SL.Sem

/-- The kernel as printed terminates without fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the adapter update of those arguments. -/
theorem algebraic : Cert.algebraic_KernelIdeal_ReferenceIdeal := by
  intro m ρ m' ρ' _ hagree
  refine ⟨fun c => Cert.Adapter.adapted
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
